-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1024x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.CellSpec.lean ====
/-
  The mathematics both programs compute, stated once over the extended reals.

  A batch of 8192 rows, each with an input vector x, a hidden vector h and a cell vector c of length 1024; two square
  weight matrices Wh, Wx (unit j's weights are row j) and two bias vectors bh, bx. All four gates of the cell share one
  pre-activation
      z[r, j] = sum_k h[r, k] * Wh[j, k]  +  sum_k x[r, k] * Wx[j, k]  +  bh[j]  +  bx[j],
  the three sigmoid gates are the one value s = 1 / (1 + e^(-z)) and the candidate is tanh z, so
      c'[r, j] = s * c[r, j] + s * tanh z,        h'[r, j] = s * tanh (c'[r, j]).
  Nothing here needs the inputs finite: only commutativity and associativity of the extended reals' sum are used when
  the two programs' groupings of z are compared.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.GatedCell

/-- The batch arrays' shape, the weight matrices' and the bias vectors'. -/
abbrev Rows : Shape := ⟨2, ![8192, 1024]⟩
abbrev Square : Shape := ⟨2, ![1024, 1024]⟩
abbrev Units : Shape := ⟨1, ![1024]⟩

/-- The gates' shared pre-activation of row `r` at unit `j`: the hidden row against row `j` of `Wh`, the input row
    against row `j` of `Wx`, and the two biases of unit `j`. -/
def preact (x h : Rows.Idx → EReal) (Wh : Square.Idx → EReal) (bh : Units.Idx → EReal) (Wx : Square.Idx → EReal)
    (bx : Units.Idx → EReal) (r : Fin 8192) (j : Fin 1024) : EReal :=
  (∑ k : Fin 1024, h (ix2 r k) * Wh (ix2 j k)) + (∑ k : Fin 1024, x (ix2 r k) * Wx (ix2 j k)) + bh (ix1 j) + bx (ix1 j)

/-- The cell state after the step from the gate value `s`, the pre-activation `z` and the old cell entry. -/
def cellStep (z cOld : EReal) : EReal := Ideal.logistic z * cOld + Ideal.logistic z * Ideal.tanh z

/-- The hidden state after the step: the gate times tanh of the new cell entry. -/
def hiddenStep (z cOld : EReal) : EReal := Ideal.logistic z * Ideal.tanh (cellStep z cOld)

/-- The new cell array. -/
def cellNext (x h c : Rows.Idx → EReal) (Wh : Square.Idx → EReal) (bh : Units.Idx → EReal) (Wx : Square.Idx → EReal)
    (bx : Units.Idx → EReal) : Rows.Idx → EReal :=
  fun i => cellStep (preact x h Wh bh Wx bx (i 0) (i 1)) (c i)

/-- The new hidden array. -/
def hiddenNext (x h c : Rows.Idx → EReal) (Wh : Square.Idx → EReal) (bh : Units.Idx → EReal) (Wx : Square.Idx → EReal)
    (bx : Units.Idx → EReal) : Rows.Idx → EReal :=
  fun i => hiddenStep (preact x h Wh bh Wx bx (i 0) (i 1)) (c i)

/-- The float word of `1.0` denotes the real one. -/
theorem ofBits_one : Ideal.ofBits .f32 0x3F800000#32 = 1 := by
  simp [Ideal.ofBits, Ideal.ieee, -EReal.coe_mul]; norm_num

/-- The sigmoid written out with the word `1.0`, a negation, an exponential, a sum and a quotient is the one gate function. -/
theorem sigmoid_spelt (z : EReal) :
    Ideal.div (Ideal.ofBits .f32 0x3F800000#32) (Ideal.ofBits .f32 0x3F800000#32 + Ideal.exp (-z)) = Ideal.logistic z := by
  rw [ofBits_one]; rfl

/-- Two groupings of the four summands of the pre-activation agree: the biases may be added in either position. -/
theorem regroup (a b u v : EReal) : a + u + b + v = a + b + u + v := by
  rw [add_right_comm a u b]

end Cert.GatedCell

end
-- ==== Proof.TileBody.lean ====
/-
  What the kernel's body computes on one tile of 256 batch rows, entry by entry, over the extended reals.

  The body loads the tile's rows of x, h and c, the whole weight matrices and the two bias rows. It forms the two
  products "rows of the tile against rows of a weight matrix" on the matrix unit into zero accumulators — entry (p, q)
  of such a product is the sum over k of row p of the tile times row q of the matrix —, adds them, adds each bias row
  broadcast down the tile, and applies the cell's step entry by entry. Changes of float format are the identity on the
  extended reals, so the narrowing of the operands before the products leaves every entry as it was.
-/
import proofs.«151408_j33930241639040_1_alg».proof.Proof.Gen.KernelIdeal.Skeleton
import proofs.«151408_j33930241639040_1_alg».proof.Proof.CellSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen Cert.GatedCell

/-! ## The matrix product's operand indices -/

/-- The left operand is read at the result's row … -/
theorem lhs_axis0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- … and the contraction position; -/
theorem lhs_axis1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- the right operand at the result's column, which names one of ITS rows, … -/
theorem rhs_axis0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- … and the contraction position. -/
theorem rhs_axis1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Entry (p, q) of the tile's product with a weight matrix, into a zero accumulator: row p of the tile against row q of
    the matrix. -/
theorem rowsAgainstRows {φ₁ φ₂ : FTy} (a : FVec Ideal S256x1024 φ₁) (W : FVec Ideal S1024x1024 φ₂) (p : Fin 256) (q : Fin 1024) :
    matmul dot_S256x1024_S1024x1024_S256x1024_1_1_0_0_n_n none a W (constant (F := Ideal) S256x1024 .f32 0x00000000#32) (ix2 p q)
      = ∑ k : Fin 1024, a (ix2 p k) * W (ix2 q k) := by
  show FloatOps.matmul dot_S256x1024_S1024x1024_S256x1024_1_1_0_0_n_n none a W (constant (F := Ideal) S256x1024 .f32 0x00000000#32) (ix2 p q) = _
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhs_axis0 _ _
    | ⟨1, _⟩ => exact (rhs_axis1 _ _).trans hk)
  rw [el, er]

/-! ## A bias row broadcast down the tile -/

/-- A [1, 1024] row, re-cast to its own shape and broadcast to the tile, reads at (p, q) the row's entry q. -/
theorem biasRow (b : FVec Ideal S1x1024 .f32) (p : Fin 256) (q : Fin 1024) :
    broadcastTo S256x1024 (shapeCast S1x1024 b shapeCasts_S1x1024_S1x1024) broadcasts_S1x1024_S256x1024 (ix2 p q)
      = b (ix2 (0 : Fin 1) q) := by
  rw [shapeCast_self]
  refine broadcastTo_apply b broadcasts_S1x1024_S256x1024 (ix2 p q) (ix2 (0 : Fin 1) q) fun a => ?_
  match a with
  | ⟨0, _⟩ => show (0 : Nat) = if (1 : Nat) = 1 then 0 else _; rw [if_pos rfl]
  | ⟨1, _⟩ => show q.val = if (1024 : Nat) = 1 then 0 else q.val; rw [if_neg (by decide)]

/-! ## The body's payloads at an entry -/

/-- The tile's pre-activation at (p, q): the hidden rows' product, the input rows' product, then the two bias rows. -/
def tilePreact (xb hb : FVec Ideal S256x1024 .f32) (Wh Wx : FVec Ideal S1024x1024 .f32) (bh bx : FVec Ideal S1x1024 .f32)
    (p : Fin 256) (q : Fin 1024) : EReal :=
  (∑ k : Fin 1024, hb (ix2 p k) * Wh (ix2 q k)) + (∑ k : Fin 1024, xb (ix2 p k) * Wx (ix2 q k)) + bh (ix2 (0 : Fin 1) q) + bx (ix2 (0 : Fin 1) q)

theorem preact_at (xb hb : Vec Ideal S256x1024 .f32) (Wh Wx : Vec Ideal S1024x1024 .f32) (bh bx : Vec Ideal S1x1024 .f32)
    (p : Fin 256) (q : Fin 1024) :
    k0_pay1 (F := Ideal) xb hb Wh Wx bh bx (ix2 p q) = tilePreact xb hb Wh Wx bh bx p q := by
  unfold k0_pay1 tilePreact
  show (matmul dot_S256x1024_S1024x1024_S256x1024_1_1_0_0_n_n none _ _ _ (ix2 p q) + matmul dot_S256x1024_S1024x1024_S256x1024_1_1_0_0_n_n none _ _ _ (ix2 p q) + broadcastTo S256x1024 _ _ (ix2 p q)) + broadcastTo S256x1024 _ _ (ix2 p q) = _
  rw [rowsAgainstRows, rowsAgainstRows, biasRow, biasRow]
  rfl

/-- The new cell entry the body stores. -/
theorem cell_at (xb hb : Vec Ideal S256x1024 .f32) (Wh Wx : Vec Ideal S1024x1024 .f32) (bh bx : Vec Ideal S1x1024 .f32)
    (cb : Vec Ideal S256x1024 .f32) (p : Fin 256) (q : Fin 1024) :
    k0_pay3 (F := Ideal) xb hb Wh Wx bh bx cb (ix2 p q) = cellStep (tilePreact xb hb Wh Wx bh bx p q) (cb (ix2 p q)) := by
  unfold k0_pay3 k0_pay2 cellStep
  show Ideal.logistic (k0_pay1 (F := Ideal) xb hb Wh Wx bh bx (ix2 p q)) * cb (ix2 p q)
      + Ideal.logistic (k0_pay1 (F := Ideal) xb hb Wh Wx bh bx (ix2 p q)) * Ideal.tanh (k0_pay1 (F := Ideal) xb hb Wh Wx bh bx (ix2 p q)) = _
  rw [preact_at]

/-- The new hidden entry the body stores. -/
theorem hidden_at (xb hb : Vec Ideal S256x1024 .f32) (Wh Wx : Vec Ideal S1024x1024 .f32) (bh bx : Vec Ideal S1x1024 .f32)
    (cb : Vec Ideal S256x1024 .f32) (p : Fin 256) (q : Fin 1024) :
    k0_pay4 (F := Ideal) xb hb Wh Wx bh bx cb (ix2 p q) = hiddenStep (tilePreact xb hb Wh Wx bh bx p q) (cb (ix2 p q)) := by
  unfold k0_pay4 k0_pay2 hiddenStep
  show Ideal.logistic (k0_pay1 (F := Ideal) xb hb Wh Wx bh bx (ix2 p q)) * Ideal.tanh (k0_pay3 (F := Ideal) xb hb Wh Wx bh bx cb (ix2 p q)) = _
  rw [preact_at, cell_at]

end Cert.KernelIdeal.Tile

end
-- ==== Proof.TilesToArrays.lean ====
/-
  From the tiles to the whole arrays: what the kernel leaves in its two result arrays.

  The grid has 32 points; point t stages rows 256·t … 256·t + 255 of x, h and c, the whole of each weight matrix, and each
  bias vector re-laid by the host as a single row, and writes back rows 256·t … 256·t + 255 of the two results. So the
  tile's entry (p, q) is the arrays' entry (256·t + p, q), the tile's pre-activation there is the specification's, and
  what point t writes back is its block of the new hidden array and of the new cell array. The 32 blocks tile the 8192
  rows (row r lies in block r / 256), so after the run the result arrays ARE those two arrays.
-/
import proofs.«151408_j33930241639040_1_alg».proof.Proof.Gen.KernelIdeal.Value
import proofs.«151408_j33930241639040_1_alg».proof.Proof.TileBody
import proofs.«151408_j33930241639040_1_alg».proof.Proof.CellSpec
import Idealize.ShloMosaic.Lib.Pipeline.Value
import Idealize.ShloMosaic.Lib.ValueIdx
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value Cert.GatedCell

variable (m : (ℓ : Loc nD τ sig) → Buf (Elt Ideal) ℓ) (ρ : Dev nD → PrngReg)

/-! ## Indices -/

theorem hz : (![0, 0] : Fin 2 → Nat) = fun _ => 0 := funext fun a => by fin_cases a <;> rfl

/-- An entry of a tile by its row within the tile and its unit. -/
theorem tile_entry (j : S256x1024.Idx) : ∃ (p : Fin 256) (q : Fin 1024), j = ix2 p q := ⟨j 0, j 1, eq_ix2 j⟩

/-- Row p of tile t is row 256·t + p of the batch. -/
def rowOf (t : Fin cfg0.N) (p : Fin 256) : Fin 8192 :=
  ⟨t.val * 256 + p.val, by have h32 : cfg0.N = 32 := N_0; have := t.isLt; have := p.isLt; omega⟩

/-- The printed index maps over the 32 points: the batch arrays' and the results' blocks move down the rows with the point,
    the weights' and the bias rows' stay at the one block there is. -/
theorem tile_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## Each staged block as entries of the argument arrays -/

/-- The input tile's entry (p, k) is the input array's at row 256·t + p. -/
theorem xTile_at (c : Dev nD) (t : Fin cfg0.N) (p : Fin 256) (k : Fin 1024) :
    (iblk m c 0 t : Vec Ideal S256x1024 .f32) (ix2 p k)
      = (m ((c : Thread nD τ).loc main_arg0) : S8192x1024.Idx → EReal) (ix2 (rowOf t p) k) := by
  obtain ⟨a00, a01, a10, a11, a20, a21, -⟩ := tile_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

/-- The hidden tile's entry (p, k) is the hidden array's at row 256·t + p. -/
theorem hTile_at (c : Dev nD) (t : Fin cfg0.N) (p : Fin 256) (k : Fin 1024) :
    (iblk m c 1 t : Vec Ideal S256x1024 .f32) (ix2 p k)
      = (m ((c : Thread nD τ).loc main_arg1) : S8192x1024.Idx → EReal) (ix2 (rowOf t p) k) := by
  obtain ⟨a00, a01, a10, a11, a20, a21, -⟩ := tile_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

/-- The cell tile's entry (p, k) is the cell array's at row 256·t + p. -/
theorem cTile_at (c : Dev nD) (t : Fin cfg0.N) (p : Fin 256) (k : Fin 1024) :
    (iblk m c 2 t : Vec Ideal S256x1024 .f32) (ix2 p k)
      = (m ((c : Thread nD τ).loc main_arg2) : S8192x1024.Idx → EReal) (ix2 (rowOf t p) k) := by
  obtain ⟨a00, a01, a10, a11, a20, a21, -⟩ := tile_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

/-- The hidden weights are staged whole. -/
theorem whTile_at (c : Dev nD) (t : Fin cfg0.N) (q k : Fin 1024) :
    (iblk m c 3 t : Vec Ideal S1024x1024 .f32) (ix2 q k)
      = (m ((c : Thread nD τ).loc main_arg3) : S1024x1024.Idx → EReal) (ix2 q k) := by
  obtain ⟨-, -, -, -, -, -, a30, a31, -, -, a50, a51, -⟩ := tile_facts t
  show V m c main_arg3 (((cfg0.win 3).blk t).view.emb (ix2 q k)) = _
  rw [V_main_arg3]
  refine congrArg _ (funext fun a => Fin.ext ?_)
  match a with
  | ⟨0, _⟩ => show win0_3.index t (0 : Fin 2) * 1024 + 1 * q.val = q.val; omega
  | ⟨1, _⟩ => show win0_3.index t (1 : Fin 2) * 1024 + 1 * k.val = k.val; omega

/-- The input weights are staged whole. -/
theorem wxTile_at (c : Dev nD) (t : Fin cfg0.N) (q k : Fin 1024) :
    (iblk m c 5 t : Vec Ideal S1024x1024 .f32) (ix2 q k)
      = (m ((c : Thread nD τ).loc main_arg5) : S1024x1024.Idx → EReal) (ix2 q k) := by
  obtain ⟨-, -, -, -, -, -, a30, a31, -, -, a50, a51, -⟩ := tile_facts t
  show V m c main_arg5 (((cfg0.win 5).blk t).view.emb (ix2 q k)) = _
  rw [V_main_arg5]
  refine congrArg _ (funext fun a => Fin.ext ?_)
  match a with
  | ⟨0, _⟩ => show win0_5.index t (0 : Fin 2) * 1024 + 1 * q.val = q.val; omega
  | ⟨1, _⟩ => show win0_5.index t (1 : Fin 2) * 1024 + 1 * k.val = k.val; omega

/-- The host lays the hidden bias out as one row: entry (0, q) of the row is entry q of the vector. -/
theorem biasH_row (c : Dev nD) :
    (V m c main_v0 : S1x1024.Idx → EReal) = fun i => (m ((c : Thread nD τ).loc main_arg4) : S1024.Idx → EReal) (ix1 (i 1)) := by
  dsimp only [Gen.V, Gen.hostOps0]
  after_results
  refine funext fun (i : S1x1024.Idx) => ?_
  show shapeCast S1x1024 (m ((c : Thread nD τ).loc main_arg4) : S1024.Idx → EReal) shapeCasts_S1024_S1x1024 i = _
  refine shapeCast_apply _ _ i (ix1 (n := 1024) (i 1)) ?_
  have h1 : (S1024.rowMajor (ix1 (n := 1024) (i 1))).val = (i 1).val := Shape.rowMajor_val_one (d := ![1024]) _
  have h2 : (S1x1024.rowMajor i).val = (i 0).val * 1024 + (i 1).val := Shape.rowMajor_val_two (d := ![1, 1024]) i
  have h0 : (i 0).val < 1 := (i 0).isLt
  exact h1.trans (by rw [h2]; omega)

/-- The host lays the input bias out as one row likewise. -/
theorem biasX_row (c : Dev nD) :
    (V m c main_v1 : S1x1024.Idx → EReal) = fun i => (m ((c : Thread nD τ).loc main_arg6) : S1024.Idx → EReal) (ix1 (i 1)) := by
  dsimp only [Gen.V, Gen.hostOps0]
  after_results
  refine funext fun (i : S1x1024.Idx) => ?_
  show shapeCast S1x1024 (m ((c : Thread nD τ).loc main_arg6) : S1024.Idx → EReal) shapeCasts_S1024_S1x1024 i = _
  refine shapeCast_apply _ _ i (ix1 (n := 1024) (i 1)) ?_
  have h1 : (S1024.rowMajor (ix1 (n := 1024) (i 1))).val = (i 1).val := Shape.rowMajor_val_one (d := ![1024]) _
  have h2 : (S1x1024.rowMajor i).val = (i 0).val * 1024 + (i 1).val := Shape.rowMajor_val_two (d := ![1, 1024]) i
  have h0 : (i 0).val < 1 := (i 0).isLt
  exact h1.trans (by rw [h2]; omega)

/-- The staged hidden-bias row's entry q is the bias vector's. -/
theorem bhTile_at (c : Dev nD) (t : Fin cfg0.N) (q : Fin 1024) :
    (iblk m c 4 t : Vec Ideal S1x1024 .f32) (ix2 (0 : Fin 1) q)
      = (m ((c : Thread nD τ).loc main_arg4) : S1024.Idx → EReal) (ix1 q) := by
  obtain ⟨-, -, -, -, -, -, -, -, a40, a41, -, -, a60, a61, -⟩ := tile_facts t
  show V m c main_v0 (((cfg0.win 4).blk t).view.emb (ix2 (0 : Fin 1) q)) = _
  rw [biasH_row m c]
  refine congrArg _ (funext fun a => Fin.ext ?_)
  match a with
  | ⟨0, _⟩ => show win0_4.index t (1 : Fin 2) * 1024 + 1 * q.val = q.val; omega

/-- The staged input-bias row's entry q is the bias vector's. -/
theorem bxTile_at (c : Dev nD) (t : Fin cfg0.N) (q : Fin 1024) :
    (iblk m c 6 t : Vec Ideal S1x1024 .f32) (ix2 (0 : Fin 1) q)
      = (m ((c : Thread nD τ).loc main_arg6) : S1024.Idx → EReal) (ix1 q) := by
  obtain ⟨-, -, -, -, -, -, -, -, a40, a41, -, -, a60, a61, -⟩ := tile_facts t
  show V m c main_v1 (((cfg0.win 6).blk t).view.emb (ix2 (0 : Fin 1) q)) = _
  rw [biasX_row m c]
  refine congrArg _ (funext fun a => Fin.ext ?_)
  match a with
  | ⟨0, _⟩ => show win0_6.index t (1 : Fin 2) * 1024 + 1 * q.val = q.val; omega

/-! ## The tile's pre-activation is the specification's -/

theorem tile_preact (c : Dev nD) (t : Fin cfg0.N) (p : Fin 256) (q : Fin 1024) :
    Tile.tilePreact (iblk m c 0 t) (iblk m c 1 t) (iblk m c 3 t) (iblk m c 5 t) (iblk m c 4 t) (iblk m c 6 t) p q
      = preact (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (rowOf t p) q := by
  unfold Tile.tilePreact preact
  refine congrArg₂ (fun (u v : EReal) => u + v) (congrArg₂ (fun (u v : EReal) => u + v) (congrArg₂ (fun (u v : EReal) => u + v)
    (Finset.sum_congr rfl fun k _ => ?_) (Finset.sum_congr rfl fun k _ => ?_)) ?_) ?_
  · rw [hTile_at m c t p k, whTile_at m c t q k]
  · rw [xTile_at m c t p k, wxTile_at m c t q k]
  · exact bhTile_at m c t q
  · exact bxTile_at m c t q

/-! ## The result arrays -/

/-- The new hidden array of the launch contents. -/
abbrev hiddenArr (c : Dev nD) : Buf (Elt Ideal) ((c : Thread nD τ).loc main_v2_0) :=
  hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The new cell array of the launch contents. -/
abbrev cellArr (c : Dev nD) : Buf (Elt Ideal) ((c : Thread nD τ).loc main_v2_1) :=
  cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- Point t writes back rows 256·t … 256·t + 255 of the new hidden array. -/
theorem hidden_flushed (c : Dev nD) (t : Fin cfg0.N) :
    (dats m 0 c).flushed 7 t = ((cfg0.win 7).blk t).view.read (Elt Ideal) (hiddenArr m c) := by
  rw [flushed7]
  unfold out0_7
  rw [View.canon_unit_zero hz]
  simp only [View.ld_unit_zero (S := S256x1024) hz, View.ld_unit_zero (S := S1024x1024) hz, View.ld_unit_zero (S := S1x1024) hz]
  funext j
  obtain ⟨p, q, rfl⟩ := tile_entry j
  obtain ⟨-, -, -, -, -, -, -, -, -, -, -, -, -, -, a70, a71, a80, a81⟩ := tile_facts t
  have hpos : ((cfg0.win 7).blk t).view.emb (ix2 p q) = (ix2 (rowOf t p) q : S8192x1024.Idx) := funext fun a => Fin.ext (by
    match a with
    | ⟨0, _⟩ => show win0_7.index t (0 : Fin 2) * 256 + 1 * p.val = t.val * 256 + p.val; omega
    | ⟨1, _⟩ => show win0_7.index t (1 : Fin 2) * 1024 + 1 * q.val = q.val; omega)
  show k0_pay4 (F := Ideal) (iblk m c 0 t) (iblk m c 1 t) (iblk m c 3 t) (iblk m c 5 t) (iblk m c 4 t) (iblk m c 6 t) (iblk m c 2 t) (ix2 p q)
      = hiddenArr m c (((cfg0.win 7).blk t).view.emb (ix2 p q))
  rw [hpos]
  refine (Tile.hidden_at (iblk m c 0 t) (iblk m c 1 t) (iblk m c 3 t) (iblk m c 5 t) (iblk m c 4 t) (iblk m c 6 t) (iblk m c 2 t) p q).trans ?_
  rw [tile_preact m c t p q, cTile_at m c t p q]
  rfl

/-- Point t writes back rows 256·t … 256·t + 255 of the new cell array. -/
theorem cell_flushed (c : Dev nD) (t : Fin cfg0.N) :
    (dats m 0 c).flushed 8 t = ((cfg0.win 8).blk t).view.read (Elt Ideal) (cellArr m c) := by
  rw [flushed8]
  unfold out0_8
  rw [View.canon_unit_zero hz]
  simp only [View.ld_unit_zero (S := S256x1024) hz, View.ld_unit_zero (S := S1024x1024) hz, View.ld_unit_zero (S := S1x1024) hz]
  funext j
  obtain ⟨p, q, rfl⟩ := tile_entry j
  obtain ⟨-, -, -, -, -, -, -, -, -, -, -, -, -, -, a70, a71, a80, a81⟩ := tile_facts t
  have hpos : ((cfg0.win 8).blk t).view.emb (ix2 p q) = (ix2 (rowOf t p) q : S8192x1024.Idx) := funext fun a => Fin.ext (by
    match a with
    | ⟨0, _⟩ => show win0_8.index t (0 : Fin 2) * 256 + 1 * p.val = t.val * 256 + p.val; omega
    | ⟨1, _⟩ => show win0_8.index t (1 : Fin 2) * 1024 + 1 * q.val = q.val; omega)
  show k0_pay3 (F := Ideal) (iblk m c 0 t) (iblk m c 1 t) (iblk m c 3 t) (iblk m c 5 t) (iblk m c 4 t) (iblk m c 6 t) (iblk m c 2 t) (ix2 p q)
      = cellArr m c (((cfg0.win 8).blk t).view.emb (ix2 p q))
  rw [hpos]
  refine (Tile.cell_at (iblk m c 0 t) (iblk m c 1 t) (iblk m c 3 t) (iblk m c 5 t) (iblk m c 4 t) (iblk m c 6 t) (iblk m c 2 t) p q).trans ?_
  rw [tile_preact m c t p q, cTile_at m c t p q]
  rfl

/-- Row r of the hidden result lies in the block of point r / 256. -/
theorem hidden_cover (i : S8192x1024.Idx) : ∃ t : Fin cfg0.N, (cfg0.win 7).flush t = true ∧ i ∈ ((cfg0.win 7).blk t).view.set := by
  have h32 : cfg0.N = 32 := N_0
  have h32' : grid0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  obtain ⟨-, -, -, -, -, -, -, -, -, -, -, -, -, -, a70, a71, a80, a81⟩ := tile_facts t
  refine ⟨t, flush0_7 t, ?_⟩
  show i ∈ ((View.whole main_v2_0).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-- Row r of the cell result lies in the block of point r / 256. -/
theorem cell_cover (i : S8192x1024.Idx) : ∃ t : Fin cfg0.N, (cfg0.win 8).flush t = true ∧ i ∈ ((cfg0.win 8).blk t).view.set := by
  have h32 : cfg0.N = 32 := N_0
  have h32' : grid0.N = 32 := N_0
  have hi0 : (i 0).val < 8192 := (i 0).isLt
  have hi1 : (i 1).val < 1024 := (i 1).isLt
  obtain ⟨t, ht⟩ : ∃ t : Fin cfg0.N, t.val = (i 0).val / 256 := ⟨⟨(i 0).val / 256, by omega⟩, rfl⟩
  obtain ⟨-, -, -, -, -, -, -, -, -, -, -, -, -, -, a70, a71, a80, a81⟩ := tile_facts t
  refine ⟨t, flush0_8 t, ?_⟩
  show i ∈ ((View.whole main_v2_1).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

/-- After the run the first result array is the new hidden array … -/
theorem hidden_final (c : Dev nD) : (dats m 0 c).arrAt 7 cfg0.N = hiddenArr m c :=
  (dats m 0 c).arrAt_eq_of_cover 7 (hiddenArr m c) (fun t _ => hidden_flushed m c t) hidden_cover

/-- … and the second the new cell array. -/
theorem cell_final (c : Dev nD) : (dats m 0 c).arrAt 8 cfg0.N = cellArr m c :=
  (dats m 0 c).arrAt_eq_of_cover 8 (cellArr m c) (fun t _ => cell_flushed m c t) cell_cover

/-- The kernel's run, read: both results at the specification's arrays of the launch contents, the arguments unchanged. -/
theorem run : θ_run defs (onTc (τ := τ) (main (F := Ideal))) ⟨m, fun _ => 0, ρ⟩ fun r => ∀ c : Dev nD,
      r.2.mem ((c : Thread nD τ).loc main_v2_0) = hiddenArr m c
      ∧ r.2.mem ((c : Thread nD τ).loc main_v2_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (hidden_final m c), (h c).2.1.trans (cell_final m c), (h c).2.2⟩)
    (run_blocks m ρ)

end Cert.KernelIdeal.Whole

end
-- ==== Proof.RefMeaning.lean ====
/-
  The reference program, read one stage at a time, computes the cell's step.

  It transposes each weight matrix and contracts the batch rows against the transposed matrix's columns — entry (r, j)
  is the sum over k of row r of the batch array times row j of the untransposed matrix —, adds the hidden product and its
  bias first and the input product and its bias after, spells the sigmoid as 1 / (1 + e^(-z)), and then forms the new
  cell and hidden entries. Its grouping of the pre-activation's four summands differs from the specification's only in
  where the first bias is added.
-/
import proofs.«151408_j33930241639040_1_alg».proof.Proof.Gen.ReferenceIdeal.Read
import proofs.«151408_j33930241639040_1_alg».proof.Proof.CellSpec

noncomputable section

open scoped BigOperators
open Idealize.ShloMosaic Idealize.ShloMosaic.ValueIdx

namespace Cert.ReferenceIdeal.Meaning

open Cert.ReferenceIdeal Cert.ReferenceIdeal.Read Cert.GatedCell

variable (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))

/-- The stage before the gates is the shared pre-activation. -/
theorem preact_stage (i : S8192x1024.Idx) :
    val_main_v10 (F := Ideal) x0 x1 x3 x4 x5 x6 i = preact x0 x1 x3 x4 x5 x6 (i 0) (i 1) := by
  rw [val_main_v10_apply, val_main_v7_apply, val_main_v4_apply, val_main_v1_apply, val_main_v6_apply, val_main_v3_apply,
    val_main_v2_apply, val_main_v9_apply, val_main_v8_apply]
  simp only [val_main_v0_apply, val_main_v5_apply]
  have rowH : ∀ k : Fin 1024, lidx_main_v1 i k = ix2 (n0 := 8192) (n1 := 1024) (i 0) k := fun k => funext fun a => by
    match a with
    | ⟨0, _⟩ => rfl
    | ⟨1, _⟩ => rfl
  have rowWh : ∀ k : Fin 1024, idx_main_v0 (ridx_main_v1 i k) = ix2 (n0 := 1024) (n1 := 1024) (i 1) k := fun k => funext fun a => by
    match a with
    | ⟨0, _⟩ => rfl
    | ⟨1, _⟩ => rfl
  have rowX : ∀ k : Fin 1024, lidx_main_v6 i k = ix2 (n0 := 8192) (n1 := 1024) (i 0) k := fun k => funext fun a => by
    match a with
    | ⟨0, _⟩ => rfl
    | ⟨1, _⟩ => rfl
  have rowWx : ∀ k : Fin 1024, idx_main_v5 (ridx_main_v6 i k) = ix2 (n0 := 1024) (n1 := 1024) (i 1) k := fun k => funext fun a => by
    match a with
    | ⟨0, _⟩ => rfl
    | ⟨1, _⟩ => rfl
  have unitH : idx_main_v2 (idx_main_v3 i) = ix1 (n := 1024) (i 1) := funext fun a => by
    match a with
    | ⟨0, _⟩ => rfl
  have unitX : idx_main_v8 (idx_main_v9 i) = ix1 (n := 1024) (i 1) := funext fun a => by
    match a with
    | ⟨0, _⟩ => rfl
  simp only [rowH, rowWh, rowX, rowWx, unitH, unitX]
  exact regroup _ _ _ _

/-- The quotient stage is the gate value. -/
theorem gate_stage (i : S8192x1024.Idx) :
    val_main_v16 (F := Ideal) x0 x1 x3 x4 x5 x6 i = Ideal.logistic (preact x0 x1 x3 x4 x5 x6 (i 0) (i 1)) := by
  rw [val_main_v16_apply, val_main_v15_apply, val_main_cst_0_apply, val_main_v14_apply, val_main_v13_apply, val_main_cst_apply,
    val_main_v12_apply, val_main_v11_apply, preact_stage]
  exact sigmoid_spelt _

/-- The second result is the new cell array. -/
theorem cell_stage : val_main_v20 (F := Ideal) x0 x1 x2 x3 x4 x5 x6 = cellNext x0 x1 x2 x3 x4 x5 x6 := by
  funext i
  rw [val_main_v20_apply, val_main_v18_apply, val_main_v19_apply, val_main_v17_apply, gate_stage, preact_stage]
  rfl

/-- The first result is the new hidden array. -/
theorem hidden_stage : val_main_v22 (F := Ideal) x0 x1 x2 x3 x4 x5 x6 = hiddenNext x0 x1 x2 x3 x4 x5 x6 := by
  funext i
  rw [val_main_v22_apply, val_main_v21_apply, gate_stage, cell_stage]
  rfl

end Cert.ReferenceIdeal.Meaning

end
-- ==== Proof.lean ====
/-
  One step of a gated recurrent cell whose four gates share their weights, as a tiled kernel and as array code.

  Both programs take a batch of 8192 rows with an input vector, a hidden vector and a cell vector of length 1024 each,
  two 1024 × 1024 weight matrices and two bias vectors. With the shared pre-activation
      z[r, j] = sum_k h[r, k] · Wh[j, k] + sum_k x[r, k] · Wx[j, k] + bh[j] + bx[j]
  and the gate value s = 1 / (1 + e^(-z)), they return c' = s · c + s · tanh z and h' = s · tanh c'.

  The kernel walks the batch in 32 tiles of 256 rows, multiplying each tile against the rows of the two weight matrices
  on the matrix unit and adding the biases last; the array code transposes the matrices, contracts whole arrays, adds the
  hidden bias before the input product, and spells the sigmoid out. Over the extended reals a sum does not depend on the
  order or grouping of its terms, the matrix unit's product into a zero accumulator is the plain sum of products, a
  change of float format is the identity, and the spelt-out sigmoid is the gate function; so both compute the
  specification's two arrays (Proof/CellSpec.lean) and are equal entry by entry, for all inputs — no finiteness is used.
  The kernel's side is Proof/TileBody.lean (one tile) and Proof/TilesToArrays.lean (the 32 tiles), the array code's
  Proof/RefMeaning.lean. Each program terminates without fault and leaves its arguments as they were; the idealized
  kernel is the kernel's own text read over the extended reals, with nothing rewritten.
-/
import proofs.«151408_j33930241639040_1_alg».proof.Defs
import proofs.«151408_j33930241639040_1_alg».proof.Proof.Gen.Kernel
import proofs.«151408_j33930241639040_1_alg».proof.Proof.Gen.Kernel.Skeleton
import proofs.«151408_j33930241639040_1_alg».proof.Proof.Gen.Kernel.Launch
import proofs.«151408_j33930241639040_1_alg».proof.Proof.Gen.Kernel.Points
import proofs.«151408_j33930241639040_1_alg».proof.Proof.Gen.Kernel.Frame
import proofs.«151408_j33930241639040_1_alg».proof.Proof.Gen.KernelIdeal
import proofs.«151408_j33930241639040_1_alg».proof.Proof.Gen.KernelIdeal.Skeleton
import proofs.«151408_j33930241639040_1_alg».proof.Proof.Gen.KernelIdeal.Launch
import proofs.«151408_j33930241639040_1_alg».proof.Proof.Gen.KernelIdeal.Points
import proofs.«151408_j33930241639040_1_alg».proof.Proof.Gen.KernelIdeal.Frame
import proofs.«151408_j33930241639040_1_alg».proof.Proof.Gen.KernelIdeal.Value
import proofs.«151408_j33930241639040_1_alg».proof.Proof.Gen.ReferenceIdeal
import proofs.«151408_j33930241639040_1_alg».proof.Proof.Gen.ReferenceIdeal.Run
import proofs.«151408_j33930241639040_1_alg».proof.Proof.Gen.ReferenceIdeal.Read
import proofs.«151408_j33930241639040_1_alg».proof.Proof.Gen.Pre_finite_inputs
import proofs.«151408_j33930241639040_1_alg».proof.Proof.CellSpec
import proofs.«151408_j33930241639040_1_alg».proof.Proof.TileBody
import proofs.«151408_j33930241639040_1_alg».proof.Proof.TilesToArrays
import proofs.«151408_j33930241639040_1_alg».proof.Proof.RefMeaning
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel over the extended reals. -/
theorem frame_kernelIdeal : Cert.frame_KernelIdeal := fun m ρ _ => Cert.KernelIdeal.Gen.frame m ρ

/-- The array code runs and keeps its arguments: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel ends with the specification's new hidden and cell arrays, and the array code's two
    results are the same two arrays. -/
theorem algebraic : Cert.algebraic_KernelIdeal_ReferenceIdeal := by
  intro m ρ m' ρ' _ hagree
  refine ⟨fun c => Cert.KernelIdeal.Whole.hiddenArr m c, fun c => Cert.KernelIdeal.Whole.cellArr m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6⟩ := hagree c
    refine (Cert.ReferenceIdeal.Read.val_main_v22_eq (F := Ideal) _ _ _ _ _ _ _).trans ?_
    rw [Cert.ReferenceIdeal.Meaning.hidden_stage, e0, e1, e2, e3, e4, e5, e6]
  · obtain ⟨e0, e1, e2, e3, e4, e5, e6⟩ := hagree c
    refine (Cert.ReferenceIdeal.Read.val_main_v20_eq (F := Ideal) _ _ _ _ _ _ _).trans ?_
    rw [Cert.ReferenceIdeal.Meaning.cell_stage, e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
